-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S640000x4 : Shape := ⟨2, ![640000, 4]⟩
abbrev S2x640000 : Shape := ⟨2, ![2, 640000]⟩
abbrev S260x128 : Shape := ⟨2, ![260, 128]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S640000x4 : S_.BroadcastsInDim S640000x4 (![] : Fin 0 → Fin S640000x4.rank)
  reducesTo_S640000x4_S_d0_1 : S640000x4.ReducesTo [0, 1] S_
  bcast_S_S260x128 : S_.BroadcastsInDim S260x128 (![] : Fin 0 → Fin S260x128.rank)
  reducesTo_S260x128_S_d0_1 : S260x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : FVec F S640000x4 .f32) (main_arg2 : IVec S2x640000 32) (main_arg3 : FVec F S260x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S640000x4 .f32 := Host.absf main_arg1
  let main_cst_0 : FVec F S_ .f32 := constant S_ .f32 0x7F800000#32
  let main_v5 : FVec F S640000x4 .f32 := broadcastInDim S640000x4 ![] bcast_S_S640000x4 main_cst_0
  let main_v6 : IVec S640000x4 1 := cmpf .olt main_v4 main_v5
  let main_c_1 : IVec S_ 1 := constantI S_ 1 1#1
  let main_v7 : IVec S_ 1 := (fun x v => Host.reduce IntOp.andi x v reducesTo_S640000x4_S_d0_1 h_S_) main_v6 main_c_1
  let main_v8 : IVec S_ 1 := andi main_v3 main_v7
  let main_v9 : FVec F S260x128 .f32 := Host.absf main_arg3
  let main_cst_2 : FVec F S_ .f32 := constant S_ .f32 0x7F800000#32
  let main_v10 : FVec F S260x128 .f32 := broadcastInDim S260x128 ![] bcast_S_S260x128 main_cst_2
  let main_v11 : IVec S260x128 1 := cmpf .olt main_v9 main_v10
  let main_c_3 : IVec S_ 1 := constantI S_ 1 1#1
  let main_v12 : IVec S_ 1 := (fun x v => Host.reduce IntOp.andi x v reducesTo_S260x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S640000x4 : Shape := ⟨2, ![640000, 4]⟩
abbrev S2x640000 : Shape := ⟨2, ![2, 640000]⟩
abbrev S260x128 : Shape := ⟨2, ![260, 128]⟩
abbrev S128 : Shape := ⟨1, ![128]⟩
abbrev S128x128 : Shape := ⟨2, ![128, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S4x128 : Shape := ⟨2, ![4, 128]⟩
abbrev S1x128 : Shape := ⟨2, ![1, 128]⟩
abbrev S2560x4 : Shape := ⟨2, ![2560, 4]⟩
abbrev S2560x128 : Shape := ⟨2, ![2560, 128]⟩

abbrev nBuf : Space → Nat
  | .hbm => 35
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S640000x4, .f32⟩
  | .hbm, ⟨2, _⟩ => ⟨S2x640000, .i32⟩
  | .hbm, ⟨3, _⟩ => ⟨S260x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S1x640000, .i32⟩
  | .hbm, ⟨19, _⟩ => ⟨S640000, .i32⟩
  | .hbm, ⟨20, _⟩ => ⟨S_, .i32⟩
  | .hbm, ⟨21, _⟩ => ⟨S640000, .i32⟩
  | .hbm, ⟨22, _⟩ => ⟨S640000, .i1⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S640000, .i32⟩
  | .hbm, ⟨27, _⟩ => ⟨S640000x1, .i32⟩
  | .hbm, ⟨28, _⟩ => ⟨S640000x128, .f32⟩
  | .hbm, ⟨29, _⟩ => ⟨S4x128, .f32⟩
  | .hbm, ⟨30, _⟩ => ⟨S128x128, .f32⟩
  | .hbm, ⟨31, _⟩ => ⟨S128x128, .f32⟩
  | .hbm, ⟨32, _⟩ => ⟨S1x128, .f32⟩
  | .hbm, ⟨33, _⟩ => ⟨S1x128, .f32⟩
  | .hbm, ⟨34, _⟩ => ⟨S640000x128, .f32⟩
  | .local _ .vmem, ⟨0, _⟩ => ⟨S2560x4, .f32⟩
  | .local _ .vmem, ⟨1, _⟩ => ⟨S2560x4, .f32⟩
  | .local _ .vmem, ⟨2, _⟩ => ⟨S2560x128, .f32⟩
  | .local _ .vmem, ⟨3, _⟩ => ⟨S2560x128, .f32⟩
  | .local _ .vmem, ⟨4, _⟩ => ⟨S2560x128, .f32⟩
  | .local _ .vmem, ⟨5, _⟩ => ⟨S2560x128, .f32⟩
  | .local _ .vmem, ⟨6, _⟩ => ⟨S4x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S2560x128, .f32⟩
  | .local _ .vmem, ⟨13, _⟩ => ⟨S2560x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2560x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2560x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2560x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2560x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  bcast_S640000_S640000x1_0 : S640000.BroadcastsInDim S640000x1 (![0] : Fin 1 → Fin S640000x1.rank)
  slices_S2x640000_S1x640000_1_0 : S2x640000.Slices ![1, 0] S1x640000
  slices_S260x128_S4x128_0_0 : S260x128.Slices ![0, 0] S4x128
  slices_S260x128_S128x128_4_0 : S260x128.Slices ![4, 0] S128x128
  slices_S260x128_S128x128_132_0 : S260x128.Slices ![132, 0] S128x128
  shapeCasts_S128_S1x128 : S128.ShapeCasts S1x128
  inb_S2560x4_S2560x4_0_0 : ∀ a, (![0, 0] : Fin 2 → Nat) a + S2560x4.size a ≤ S2560x4.size a
  h_S2560x4 : 0 < S2560x4.numel
  bitsLt_bf16_f32 : FTy.bits .bf16 < FTy.bits .f32
  inb_S2560x128_S2560x128_0_0 : ∀ a, (![0, 0] : Fin 2 → Nat) a + S2560x128.size a ≤ S2560x128.size a
  h_S2560x128 : 0 < S2560x128.numel
  shapeCasts_S2560x128_S2560x128 : S2560x128.ShapeCasts S2560x128
  inb_S4x128_S4x128_0_0 : ∀ a, (![0, 0] : Fin 2 → Nat) a + S4x128.size a ≤ S4x128.size a
  h_S4x128 : 0 < S4x128.numel
  shapeCasts_S4x128_S4x128 : S4x128.ShapeCasts S4x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2560x128 : S1x128.Broadcasts S2560x128
  gather_S100000x128_S640000x1_S640000x128_1_0_n_n_0_1_1128_wf : GatherDims.WF S100000x128 S640000x1 S640000x128 [1] [0] [] [0] [] 1 ![1, 128]
  dot_S2560x4_S4x128_S2560x128_1_0_0_1_n_n_wf : DotDims.WF S2560x4 S4x128 S2560x128 [1] [0] [0] [1] [] []
  dot_S2560x128_S128x128_S2560x128_1_0_0_1_n_n_wf : DotDims.WF S2560x128 S128x128 S2560x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2560x4.size a ≤ S640000x4.size a
  hwx0_0 : ∀ i : grid0.Coords, EltTy.bits .f32 = 32 ∨ (Rect.block (s := S640000x4) S2560x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2560x128.size a ≤ S640000x128.size a
  hwx0_1 : ∀ i : grid0.Coords, EltTy.bits .f32 = 32 ∨ (Rect.block (s := S640000x128) S2560x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2560x128.size a ≤ S640000x128.size a
  hwx0_2 : ∀ i : grid0.Coords, EltTy.bits .f32 = 32 ∨ (Rect.block (s := S640000x128) S2560x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x128.size a ≤ S4x128.size a
  hwx0_3 : ∀ i : grid0.Coords, EltTy.bits .f32 = 32 ∨ (Rect.block (s := S4x128) S4x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2560x128.size a ≤ S640000x128.size a
  hwx0_9 : ∀ i : grid0.Coords, EltTy.bits .f32 = 32 ∨ (Rect.block (s := S640000x128) S2560x128.size (cc0_transform_9 i) (hinb0_9 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S2560x4_S4x128_S2560x128_1_0_0_1_n_n : DotDims S2560x4 S4x128 S2560x128 where
  lhsContracting := [1]
  rhsContracting := [0]
  lhsNonContracting := [0]
  rhsNonContracting := [1]
  lhsBatch := []
  rhsBatch := []
  wf := dot_S2560x4_S4x128_S2560x128_1_0_0_1_n_n_wf
def dot_S2560x128_S128x128_S2560x128_1_0_0_1_n_n : DotDims S2560x128 S128x128 S2560x128 where
  lhsContracting := [1]
  rhsContracting := [0]
  lhsNonContracting := [0]
  rhsNonContracting := [1]
  lhsBatch := []
  rhsBatch := []
  wf := dot_S2560x128_S128x128_S2560x128_1_0_0_1_n_n_wf

abbrev win0_0 : Pipeline.Window sig grid0 :=
  Pipeline.Window.ofSpec (Memref.whole main_arg1) S2560x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S2560x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2560x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S4x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23) S2560x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x128 : Shape := ⟨2, ![100000, 128]⟩
abbrev S640000x4 : Shape := ⟨2, ![640000, 4]⟩
abbrev S2x640000 : Shape := ⟨2, ![2, 640000]⟩
abbrev S260x128 : Shape := ⟨2, ![260, 128]⟩
abbrev S128 : Shape := ⟨1, ![128]⟩
abbrev S128x128 : Shape := ⟨2, ![128, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S640000x260 : Shape := ⟨2, ![640000, 260]⟩
abbrev S1x128 : Shape := ⟨2, ![1, 128]⟩

abbrev nBuf : Space → Nat
  | .hbm => 41
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S640000x4, .f32⟩
  | .hbm, ⟨2, _⟩ => ⟨S2x640000, .i32⟩
  | .hbm, ⟨3, _⟩ => ⟨S260x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S1x640000, .i32⟩
  | .hbm, ⟨19, _⟩ => ⟨S640000, .i32⟩
  | .hbm, ⟨20, _⟩ => ⟨S_, .i32⟩
  | .hbm, ⟨21, _⟩ => ⟨S640000, .i32⟩
  | .hbm, ⟨22, _⟩ => ⟨S640000, .i1⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S640000, .i32⟩
  | .hbm, ⟨27, _⟩ => ⟨S640000x1, .i32⟩
  | .hbm, ⟨28, _⟩ => ⟨S640000x128, .f32⟩
  | .hbm, ⟨29, _⟩ => ⟨S640000x260, .f32⟩
  | .hbm, ⟨30, _⟩ => ⟨S640000x128, .f32⟩
  | .hbm, ⟨31, _⟩ => ⟨S1x128, .f32⟩
  | .hbm, ⟨32, _⟩ => ⟨S640000x128, .f32⟩
  | .hbm, ⟨33, _⟩ => ⟨S640000x128, .f32⟩
  | .hbm, ⟨34, _⟩ => ⟨S_, .f32⟩
  | .hbm, ⟨35, _⟩ => ⟨S640000x128, .f32⟩
  | .hbm, ⟨36, _⟩ => ⟨S640000x128, .f32⟩
  | .hbm, ⟨37, _⟩ => ⟨S640000x128, .f32⟩
  | .hbm, ⟨38, _⟩ => ⟨S1x128, .f32⟩
  | .hbm, ⟨39, _⟩ => ⟨S640000x128, .f32⟩
  | .hbm, ⟨40, _⟩ => ⟨S640000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  bcast_S640000_S640000x1_0 : S640000.BroadcastsInDim S640000x1 (![0] : Fin 1 → Fin S640000x1.rank)
  slices_S2x640000_S1x640000_1_0 : S2x640000.Slices ![1, 0] S1x640000
  concatenates_S640000x4_S640000x128_S640000x128_S640000x260_d1 : Shape.Concatenates [S640000x4, S640000x128, S640000x128] S640000x260 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  gather_S100000x128_S640000x1_S640000x128_1_0_n_n_0_1_1128_wf : GatherDims.WF S100000x128 S640000x1 S640000x128 [1] [0] [] [0] [] 1 ![1, 128]
  dot_S640000x260_S260x128_S640000x128_1_0_0_1_n_n_wf : DotDims.WF S640000x260 S260x128 S640000x128 [1] [0] [0] [1] [] []
  dot_S640000x128_S128x128_S640000x128_1_0_0_1_n_n_wf : DotDims.WF S640000x128 S128x128 S640000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S640000x260_S260x128_S640000x128_1_0_0_1_n_n : DotDims S640000x260 S260x128 S640000x128 where
  lhsContracting := [1]
  rhsContracting := [0]
  lhsNonContracting := [0]
  rhsNonContracting := [1]
  lhsBatch := []
  rhsBatch := []
  wf := dot_S640000x260_S260x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf

class Facts : Prop extends Facts₀ where

variable [Facts]
-- ==== Proof.MlpSpec.lean ====
/-
  The two-layer edge network as ONE function of its arrays, over the extended reals.

  For an edge `e` with attribute row `a` (4 entries), sender row `s` and receiver row `r` (128 entries each),
  the hidden unit `k` is `max (Σⱼ a j · Wa j k + Σⱼ s j · Wb j k + Σⱼ r j · Wc j k + b₁ k) 0`, where `Wa`, `Wb`, `Wc`
  are the three row bands of the first weight matrix (rows 0–3, 4–131, 132–259), and output column `n` is
  `Σₖ hidden k · W₂ k n + b₂ n`. The three partial sums are kept apart and added in this order; that a single sum over
  all 260 rows of the first weight matrix splits into them is `sum_split260`, which needs only that addition on the
  extended reals is commutative and associative (no finiteness).
-/
import Idealize.ShloMosaic.PureOps.Ideal
import Idealize.ShloMosaic.Lib.ValueIdx
import Mathlib.Algebra.BigOperators.Fin

noncomputable section

open scoped BigOperators

namespace Cert.EdgeMlp

open Idealize.ShloMosaic Idealize.ShloMosaic.ValueIdx

/-- A sum over 260 consecutive positions is the sum over the first 4, plus the next 128, plus the last 128. -/
theorem sum_split260 {M : Type*} [AddCommMonoid M] (f : Fin 260 → M) :
    ∑ k : Fin 260, f k
      = ((∑ j : Fin 4, f ⟨j.val, by have := j.isLt; omega⟩) + ∑ j : Fin 128, f ⟨4 + j.val, by have := j.isLt; omega⟩)
        + ∑ j : Fin 128, f ⟨132 + j.val, by have := j.isLt; omega⟩ := by
  have h := Fin.sum_univ_add (M := M) (a := 4 + 128) (b := 128) f
  refine h.trans ?_
  rw [Fin.sum_univ_add (a := 4) (b := 128)]
  rfl

/-- A rank-2 array of extended reals of literal extents. -/
abbrev Arr2 (a b : Nat) : Type := FVec Ideal ⟨2, ![a, b]⟩ .f32

/-- One edge's output row at column `n`, from the edge's three input rows and the weights (the first weight matrix
    as its three row bands, the biases as one-row matrices). -/
def rowOut (a : Fin 4 → EReal) (s r : Fin 128 → EReal) (wa : Arr2 4 128) (wb wc : Arr2 128 128) (b1 : Arr2 1 128)
    (w2 : Arr2 128 128) (b2 : Arr2 1 128) (n : Fin 128) : EReal :=
  (∑ k : Fin 128,
      max ((((∑ j : Fin 4, a j * wa (ix2 j k)) + ∑ j : Fin 128, s j * wb (ix2 j k))
            + ∑ j : Fin 128, r j * wc (ix2 j k)) + b1 (ix2 (0 : Fin 1) k)) (Ideal.ofBits .f32 0x00000000#32)
        * w2 (ix2 k n))
    + b2 (ix2 (0 : Fin 1) n)

/-- The whole result: row `e` is `rowOut` of row `e` of the attributes and of the gathered sender and receiver rows. -/
def out (ea : Arr2 640000 4) (se re : Arr2 640000 128) (wa : Arr2 4 128) (wb wc : Arr2 128 128) (b1 : Arr2 1 128)
    (w2 : Arr2 128 128) (b2 : Arr2 1 128) : Arr2 640000 128 := fun i =>
  rowOut (fun j => ea (ix2 (i 0) j)) (fun j => se (ix2 (i 0) j)) (fun j => re (ix2 (i 0) j)) wa wb wc b1 w2 b2 (i 1)

theorem out_apply (ea : Arr2 640000 4) (se re : Arr2 640000 128) (wa : Arr2 4 128) (wb wc : Arr2 128 128) (b1 : Arr2 1 128)
    (w2 : Arr2 128 128) (b2 : Arr2 1 128) (e : Fin 640000) (n : Fin 128) :
    out ea se re wa wb wc b1 w2 b2 (ix2 e n)
      = rowOut (fun j => ea (ix2 e j)) (fun j => se (ix2 e j)) (fun j => re (ix2 e j)) wa wb wc b1 w2 b2 n := rfl

end Cert.EdgeMlp

end
-- ==== Proof.KernelPayload.lean ====
/-
  The kernel body's arithmetic, read at one entry of its output block.

  The body multiplies the attribute block by the first band of the first weight matrix, the sender block by the second and
  the receiver block by the third, each product into a zero accumulator, adds the three products in that order, adds the
  bias row, clamps at zero, multiplies by the second weight matrix and adds the second bias row. Narrowing a block to
  bf16 before a product is the identity on the extended reals. At row `p`, column `q` of the block this is
  `EdgeMlp.rowOut` of row `p` of the three input blocks.
-/
import proofs.«164560_j88734024336032_1_alg».proof.Proof.Gen.KernelIdeal.Skeleton
import proofs.«164560_j88734024336032_1_alg».proof.Proof.MlpSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-! ## The two contractions' operand indices -/

theorem lhs_mm4_0 (i : S2560x128.Idx) (q : dot_S2560x4_S4x128_S2560x128_1_0_0_1_n_n.contr.Idx) :
    (dot_S2560x4_S4x128_S2560x128_1_0_0_1_n_n.lhsIdx i q 0).val = (i 0).val := by
  unfold DotDims.lhsIdx
  rw [dif_neg (show ¬(0 : Fin S2560x4.rank) ∈ dot_S2560x4_S4x128_S2560x128_1_0_0_1_n_n.lhsBatch by decide), dif_pos (show (0 : Fin S2560x4.rank) ∈ dot_S2560x4_S4x128_S2560x128_1_0_0_1_n_n.lhsNonContracting by decide)]
  rfl
theorem lhs_mm4_1 (i : S2560x128.Idx) (q : dot_S2560x4_S4x128_S2560x128_1_0_0_1_n_n.contr.Idx) :
    (dot_S2560x4_S4x128_S2560x128_1_0_0_1_n_n.lhsIdx i q 1).val = (q ⟨0, by decide⟩).val :=
  dot_S2560x4_S4x128_S2560x128_1_0_0_1_n_n.lhsIdx_val_of_single rfl i q
theorem rhs_mm4_0 (i : S2560x128.Idx) (q : dot_S2560x4_S4x128_S2560x128_1_0_0_1_n_n.contr.Idx) :
    (dot_S2560x4_S4x128_S2560x128_1_0_0_1_n_n.rhsIdx i q 0).val = (q ⟨0, by decide⟩).val :=
  dot_S2560x4_S4x128_S2560x128_1_0_0_1_n_n.rhsIdx_val_of_single rfl i q
theorem rhs_mm4_1 (i : S2560x128.Idx) (q : dot_S2560x4_S4x128_S2560x128_1_0_0_1_n_n.contr.Idx) :
    (dot_S2560x4_S4x128_S2560x128_1_0_0_1_n_n.rhsIdx i q 1).val = (i 1).val := by
  unfold DotDims.rhsIdx
  rw [dif_neg (show ¬(1 : Fin S4x128.rank) ∈ dot_S2560x4_S4x128_S2560x128_1_0_0_1_n_n.rhsBatch by decide), dif_pos (show (1 : Fin S4x128.rank) ∈ dot_S2560x4_S4x128_S2560x128_1_0_0_1_n_n.rhsNonContracting by decide)]
  rfl

theorem lhs_mm128_0 (i : S2560x128.Idx) (q : dot_S2560x128_S128x128_S2560x128_1_0_0_1_n_n.contr.Idx) :
    (dot_S2560x128_S128x128_S2560x128_1_0_0_1_n_n.lhsIdx i q 0).val = (i 0).val := by
  unfold DotDims.lhsIdx
  rw [dif_neg (show ¬(0 : Fin S2560x128.rank) ∈ dot_S2560x128_S128x128_S2560x128_1_0_0_1_n_n.lhsBatch by decide), dif_pos (show (0 : Fin S2560x128.rank) ∈ dot_S2560x128_S128x128_S2560x128_1_0_0_1_n_n.lhsNonContracting by decide)]
  rfl
theorem lhs_mm128_1 (i : S2560x128.Idx) (q : dot_S2560x128_S128x128_S2560x128_1_0_0_1_n_n.contr.Idx) :
    (dot_S2560x128_S128x128_S2560x128_1_0_0_1_n_n.lhsIdx i q 1).val = (q ⟨0, by decide⟩).val :=
  dot_S2560x128_S128x128_S2560x128_1_0_0_1_n_n.lhsIdx_val_of_single rfl i q
theorem rhs_mm128_0 (i : S2560x128.Idx) (q : dot_S2560x128_S128x128_S2560x128_1_0_0_1_n_n.contr.Idx) :
    (dot_S2560x128_S128x128_S2560x128_1_0_0_1_n_n.rhsIdx i q 0).val = (q ⟨0, by decide⟩).val :=
  dot_S2560x128_S128x128_S2560x128_1_0_0_1_n_n.rhsIdx_val_of_single rfl i q
theorem rhs_mm128_1 (i : S2560x128.Idx) (q : dot_S2560x128_S128x128_S2560x128_1_0_0_1_n_n.contr.Idx) :
    (dot_S2560x128_S128x128_S2560x128_1_0_0_1_n_n.rhsIdx i q 1).val = (i 1).val := by
  unfold DotDims.rhsIdx
  rw [dif_neg (show ¬(1 : Fin S128x128.rank) ∈ dot_S2560x128_S128x128_S2560x128_1_0_0_1_n_n.rhsBatch by decide), dif_pos (show (1 : Fin S128x128.rank) ∈ dot_S2560x128_S128x128_S2560x128_1_0_0_1_n_n.rhsNonContracting by decide)]
  rfl

/-! ## The two products at an entry -/

/-- The [2560,4] × [4,128] product into zero, at `(p, q)`: the sum over the 4 shared positions. -/
theorem mm4_apply {φ₁ φ₂ : FTy} (l : FVec Ideal S2560x4 φ₁) (r : FVec Ideal S4x128 φ₂) (p : Fin 2560) (q : Fin 128) :
    matmul (F := Ideal) dot_S2560x4_S4x128_S2560x128_1_0_0_1_n_n none l r (constant S2560x128 .f32 0x00000000#32) (ix2 p q)
      = ∑ k : Fin 4, l (ix2 p k) * r (ix2 k q) := by
  show FloatOps.matmul _ _ _ _ _ _ = _
  rw [Ideal.matmul_constant_zero_apply, ← Equiv.sum_comp (contrEquiv1 dot_S2560x4_S4x128_S2560x128_1_0_0_1_n_n 4 rfl rfl).symm]
  refine Finset.sum_congr rfl fun k _ => ?_
  have hk := contrEquiv1_symm_val dot_S2560x4_S4x128_S2560x128_1_0_0_1_n_n 4 rfl rfl k
  have el : dot_S2560x4_S4x128_S2560x128_1_0_0_1_n_n.lhsIdx (ix2 p q) ((contrEquiv1 dot_S2560x4_S4x128_S2560x128_1_0_0_1_n_n 4 rfl rfl).symm k) = ix2 p k := funext fun a => Fin.ext (by
    match a with
    | ⟨0, _⟩ => exact lhs_mm4_0 _ _
    | ⟨1, _⟩ => exact (lhs_mm4_1 _ _).trans hk)
  have er : dot_S2560x4_S4x128_S2560x128_1_0_0_1_n_n.rhsIdx (ix2 p q) ((contrEquiv1 dot_S2560x4_S4x128_S2560x128_1_0_0_1_n_n 4 rfl rfl).symm k) = ix2 k q := funext fun a => Fin.ext (by
    match a with
    | ⟨0, _⟩ => exact (rhs_mm4_0 _ _).trans hk
    | ⟨1, _⟩ => exact rhs_mm4_1 _ _)
  rw [el, er]

/-- The [2560,128] × [128,128] product into zero, at `(p, q)`: the sum over the 128 shared positions. -/
theorem mm128_apply {φ₁ φ₂ : FTy} (l : FVec Ideal S2560x128 φ₁) (r : FVec Ideal S128x128 φ₂) (p : Fin 2560) (q : Fin 128) :
    matmul (F := Ideal) dot_S2560x128_S128x128_S2560x128_1_0_0_1_n_n none l r (constant S2560x128 .f32 0x00000000#32) (ix2 p q)
      = ∑ k : Fin 128, l (ix2 p k) * r (ix2 k q) := by
  show FloatOps.matmul _ _ _ _ _ _ = _
  rw [Ideal.matmul_constant_zero_apply, ← Equiv.sum_comp (contrEquiv1 dot_S2560x128_S128x128_S2560x128_1_0_0_1_n_n 128 rfl rfl).symm]
  refine Finset.sum_congr rfl fun k _ => ?_
  have hk := contrEquiv1_symm_val dot_S2560x128_S128x128_S2560x128_1_0_0_1_n_n 128 rfl rfl k
  have el : dot_S2560x128_S128x128_S2560x128_1_0_0_1_n_n.lhsIdx (ix2 p q) ((contrEquiv1 dot_S2560x128_S128x128_S2560x128_1_0_0_1_n_n 128 rfl rfl).symm k) = ix2 p k := funext fun a => Fin.ext (by
    match a with
    | ⟨0, _⟩ => exact lhs_mm128_0 _ _
    | ⟨1, _⟩ => exact (lhs_mm128_1 _ _).trans hk)
  have er : dot_S2560x128_S128x128_S2560x128_1_0_0_1_n_n.rhsIdx (ix2 p q) ((contrEquiv1 dot_S2560x128_S128x128_S2560x128_1_0_0_1_n_n 128 rfl rfl).symm k) = ix2 k q := funext fun a => Fin.ext (by
    match a with
    | ⟨0, _⟩ => exact (rhs_mm128_0 _ _).trans hk
    | ⟨1, _⟩ => exact rhs_mm128_1 _ _)
  rw [el, er]

/-! ## The body's result at an entry -/

/-- The body's result at row `p`, column `q` of the block is the network's output for the edge whose three input rows
    are row `p` of the three loaded blocks. -/
theorem pay_apply (v0 : Vec Ideal S2560x4 .f32) (v2 v5 : Vec Ideal S2560x128 .f32) (v8 : Vec Ideal S4x128 .f32)
    (v11 v14 v17 : Vec Ideal S128x128 .f32) (v24 v32 : Vec Ideal S1x128 .f32) (p : Fin 2560) (q : Fin 128) :
    k0_pay1 (F := Ideal) v0 v2 v5 v8 v11 v14 v17 v24 v32 (ix2 p q)
      = Cert.EdgeMlp.rowOut (fun j => v0 (ix2 p j)) (fun j => v2 (ix2 p j)) (fun j => v5 (ix2 p j)) v8 v11 v14 v24 v17 v32 q := by
  unfold k0_pay1 Cert.EdgeMlp.rowOut
  simp only [shapeCast_self]
  rw [addf_apply, mm128_apply, broadcastTo_1b_ab_apply]
  simp only [truncf_apply, maximumf_apply, addf_apply, mm4_apply, mm128_apply, broadcastTo_1b_ab_apply, broadcast_apply]
  rfl

end Cert.KernelIdeal.Hand

end
-- ==== Proof.KernelBlocks.lean ====
/-
  From the kernel's blocks to its whole result array.

  Grid point `t` (of 250) stages rows `2560 t … 2560 t + 2559` of the attribute, sender and receiver arrays and the whole
  of each weight band, weight matrix and bias row, and writes rows `2560 t … 2560 t + 2559` of the result. So what point
  `t` writes back is block `t` of `EdgeMlp.out` of the arrays as the kernel finds them, the 250 blocks cover the
  result array, and the array ends holding `EdgeMlp.out` of those arrays.
-/
import proofs.«164560_j88734024336032_1_alg».proof.Proof.Gen.KernelIdeal.Value
import proofs.«164560_j88734024336032_1_alg».proof.Proof.KernelPayload
import Idealize.ShloMosaic.Lib.Pipeline.Value

noncomputable section

open scoped BigOperators

namespace Cert.KernelIdeal.Hand

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block indices over the grid: the three edge-indexed inputs and the output move one block of rows per point, the
    weights and biases stay at block 0. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

theorem point_lt (t : Fin cfg0.N) : t.val < 250 := by
  have h := t.isLt
  have hN : cfg0.N = 250 := N_0
  omega

/-! ## Each window's block as entries of its array -/

/-- The attribute block at point `t` is rows `2560 t …` of the attribute array. -/
theorem attr_blk (c : Dev nD) (t : Fin cfg0.N) (y : S2560x4.Idx) (k : S640000x4.Idx)
    (h0 : (k 0).val = 2560 * t.val + (y 0).val) (h1 : (k 1).val = (y 1).val) :
    (iblk m c 0 t : Vec Ideal S2560x4 .f32) y = (V m c main_arg1 : Vec Ideal S640000x4 .f32) k := by
  obtain ⟨⟨e0, e1⟩, -⟩ := idx_facts t
  show V m c main_arg1 (((cfg0.win 0).blk t).view.emb y) = V m c main_arg1 k
  congr 1
  funext a; apply Fin.ext
  match a with
  | ⟨0, _⟩ => show win0_0.index t (0 : Fin 2) * 2560 + 1 * (y 0).val = (k 0).val; omega
  | ⟨1, _⟩ => show win0_0.index t (1 : Fin 2) * 4 + 1 * (y 1).val = (k 1).val; omega

/-- The sender block at point `t` is rows `2560 t …` of the gathered sender rows. -/
theorem sender_blk (c : Dev nD) (t : Fin cfg0.N) (y : S2560x128.Idx) (k : S640000x128.Idx)
    (h0 : (k 0).val = 2560 * t.val + (y 0).val) (h1 : (k 1).val = (y 1).val) :
    (iblk m c 1 t : Vec Ideal S2560x128 .f32) y = (V m c main_v8 : Vec Ideal S640000x128 .f32) k := by
  obtain ⟨-, ⟨e0, e1⟩, -⟩ := idx_facts t
  show V m c main_v8 (((cfg0.win 1).blk t).view.emb y) = V m c main_v8 k
  congr 1
  funext a; apply Fin.ext
  match a with
  | ⟨0, _⟩ => show win0_1.index t (0 : Fin 2) * 2560 + 1 * (y 0).val = (k 0).val; omega
  | ⟨1, _⟩ => show win0_1.index t (1 : Fin 2) * 128 + 1 * (y 1).val = (k 1).val; omega

/-- The receiver block at point `t` is rows `2560 t …` of the gathered receiver rows. -/
theorem receiver_blk (c : Dev nD) (t : Fin cfg0.N) (y : S2560x128.Idx) (k : S640000x128.Idx)
    (h0 : (k 0).val = 2560 * t.val + (y 0).val) (h1 : (k 1).val = (y 1).val) :
    (iblk m c 2 t : Vec Ideal S2560x128 .f32) y = (V m c main_v17 : Vec Ideal S640000x128 .f32) k := by
  obtain ⟨-, -, ⟨e0, e1⟩, -⟩ := idx_facts t
  show V m c main_v17 (((cfg0.win 2).blk t).view.emb y) = V m c main_v17 k
  congr 1
  funext a; apply Fin.ext
  match a with
  | ⟨0, _⟩ => show win0_2.index t (0 : Fin 2) * 2560 + 1 * (y 0).val = (k 0).val; omega
  | ⟨1, _⟩ => show win0_2.index t (1 : Fin 2) * 128 + 1 * (y 1).val = (k 1).val; omega

/-- The first weight band's block is the whole band, at every point. -/
theorem band0_blk (c : Dev nD) (t : Fin cfg0.N) :
    (iblk m c 3 t : Vec Ideal S4x128 .f32) = (V m c main_v18 : Vec Ideal S4x128 .f32) := by
  obtain ⟨-, -, -, ⟨e0, e1⟩, -⟩ := idx_facts t
  funext y
  show V m c main_v18 (((cfg0.win 3).blk t).view.emb y) = V m c main_v18 y
  congr 1
  funext a; apply Fin.ext
  match a with
  | ⟨0, _⟩ => show win0_3.index t (0 : Fin 2) * 4 + 1 * (y 0).val = (y 0).val; omega
  | ⟨1, _⟩ => show win0_3.index t (1 : Fin 2) * 128 + 1 * (y 1).val = (y 1).val; omega

/-- The second weight band's block is the whole band. -/
theorem band1_blk (c : Dev nD) (t : Fin cfg0.N) :
    (iblk m c 4 t : Vec Ideal S128x128 .f32) = (V m c main_v19 : Vec Ideal S128x128 .f32) := by
  obtain ⟨-, -, -, -, ⟨e0, e1⟩, -⟩ := idx_facts t
  funext y
  show V m c main_v19 (((cfg0.win 4).blk t).view.emb y) = V m c main_v19 y
  congr 1
  funext a; apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The third weight band's block is the whole band. -/
theorem band2_blk (c : Dev nD) (t : Fin cfg0.N) :
    (iblk m c 5 t : Vec Ideal S128x128 .f32) = (V m c main_v20 : Vec Ideal S128x128 .f32) := by
  obtain ⟨-, -, -, -, -, ⟨e0, e1⟩, -⟩ := idx_facts t
  funext y
  show V m c main_v20 (((cfg0.win 5).blk t).view.emb y) = V m c main_v20 y
  congr 1
  funext a; apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- The first bias row's block is the whole row. -/
theorem bias1_blk (c : Dev nD) (t : Fin cfg0.N) :
    (iblk m c 6 t : Vec Ideal S1x128 .f32) = (V m c main_v21 : Vec Ideal S1x128 .f32) := by
  obtain ⟨-, -, -, -, -, -, ⟨e0, e1⟩, -⟩ := idx_facts t
  funext y
  show V m c main_v21 (((cfg0.win 6).blk t).view.emb y) = V m c main_v21 y
  congr 1
  funext a; apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- The second weight matrix's block is the whole matrix. -/
theorem w2_blk (c : Dev nD) (t : Fin cfg0.N) :
    (iblk m c 7 t : Vec Ideal S128x128 .f32) = (V m c main_arg5 : Vec Ideal S128x128 .f32) := by
  obtain ⟨-, -, -, -, -, -, -, ⟨e0, e1⟩, -⟩ := idx_facts t
  funext y
  show V m c main_arg5 (((cfg0.win 7).blk t).view.emb y) = V m c main_arg5 y
  congr 1
  funext a; apply Fin.ext
  match a with
  | ⟨0, _⟩ => show win0_7.index t (0 : Fin 2) * 128 + 1 * (y 0).val = (y 0).val; omega
  | ⟨1, _⟩ => show win0_7.index t (1 : Fin 2) * 128 + 1 * (y 1).val = (y 1).val; omega

/-- The second bias row's block is the whole row. -/
theorem bias2_blk (c : Dev nD) (t : Fin cfg0.N) :
    (iblk m c 8 t : Vec Ideal S1x128 .f32) = (V m c main_v22 : Vec Ideal S1x128 .f32) := by
  obtain ⟨-, -, -, -, -, -, -, -, ⟨e0, e1⟩, -⟩ := idx_facts t
  funext y
  show V m c main_v22 (((cfg0.win 8).blk t).view.emb y) = V m c main_v22 y
  congr 1
  funext a; apply Fin.ext
  match a with
  | ⟨0, _⟩ => show win0_8.index t (0 : Fin 2) * 1 + 1 * (y 0).val = (y 0).val; omega
  | ⟨1, _⟩ => show win0_8.index t (1 : Fin 2) * 128 + 1 * (y 1).val = (y 1).val; omega

/-! ## The result array -/

/-- The network's output over the arrays as the kernel finds them. -/
def result (c : Dev nD) : Vec Ideal S640000x128 .f32 :=
  Cert.EdgeMlp.out (V m c main_arg1) (V m c main_v8) (V m c main_v17) (V m c main_v18) (V m c main_v19) (V m c main_v20)
    (V m c main_v21) (V m c main_arg5) (V m c main_v22)

/-- The body's result at any entry of the block, from the entry's coordinates. -/
theorem pay_at (v0 : Vec Ideal S2560x4 .f32) (v2 v5 : Vec Ideal S2560x128 .f32) (v8 : Vec Ideal S4x128 .f32)
    (v11 v14 v17 : Vec Ideal S128x128 .f32) (v24 v32 : Vec Ideal S1x128 .f32) (y : S2560x128.Idx) :
    k0_pay1 (F := Ideal) v0 v2 v5 v8 v11 v14 v17 v24 v32 y
      = Cert.EdgeMlp.rowOut (fun j => v0 (ix2 (y 0) j)) (fun j => v2 (ix2 (y 0) j)) (fun j => v5 (ix2 (y 0) j)) v8 v11 v14 v24 v17 v32 (y 1) := by
  obtain ⟨p, q, rfl⟩ : ∃ (p : Fin 2560) (q : Fin 128), y = ix2 p q := ⟨y 0, y 1, eq_ix2 y⟩
  exact pay_apply v0 v2 v5 v8 v11 v14 v17 v24 v32 p q

/-- WHAT POINT `t` WRITES BACK is block `t` of the network's output. -/
theorem flushed_eq (c : Dev nD) (t : Fin cfg0.N) :
    (dats m 0 c).flushed 9 t = ((cfg0.win 9).blk t).view.read (Elt Ideal) (result m c) := by
  rw [flushed9]
  unfold out0_9
  rw [View.canon_unit_zero hz]
  simp only [View.ld_unit_zero (S := S2560x4) hz, View.ld_unit_zero (S := S2560x128) hz, View.ld_unit_zero (S := S4x128) hz,
    View.ld_unit_zero (S := S128x128) hz, View.ld_unit_zero (S := S1x128) hz]
  obtain ⟨-, -, -, -, -, -, -, -, -, ⟨e0, e1⟩⟩ := idx_facts t
  have ht := point_lt t
  funext y
  have hy0 : (y 0).val < 2560 := (y 0).isLt
  have hy1 : (y 1).val < 128 := (y 1).isLt
  have hemb : ((cfg0.win 9).blk t).view.emb y = (ix2 (⟨2560 * t.val + (y 0).val, by omega⟩ : Fin 640000) (⟨(y 1).val, hy1⟩ : Fin 128) : S640000x128.Idx) := by
    funext a; apply Fin.ext
    match a with
    | ⟨0, _⟩ => show win0_9.index t (0 : Fin 2) * 2560 + 1 * (y 0).val = 2560 * t.val + (y 0).val; omega
    | ⟨1, _⟩ => show win0_9.index t (1 : Fin 2) * 128 + 1 * (y 1).val = (y 1).val; omega
  show k0_pay1 (F := Ideal) (iblk m c 0 t) (iblk m c 1 t) (iblk m c 2 t) (iblk m c 3 t) (iblk m c 4 t) (iblk m c 5 t) (iblk m c 7 t) (iblk m c 6 t) (iblk m c 8 t) y
    = result m c (((cfg0.win 9).blk t).view.emb y)
  refine (pay_at (iblk m c 0 t) (iblk m c 1 t) (iblk m c 2 t) (iblk m c 3 t) (iblk m c 4 t) (iblk m c 5 t) (iblk m c 7 t) (iblk m c 6 t) (iblk m c 8 t) y).trans ?_
  rw [hemb]
  unfold result
  rw [Cert.EdgeMlp.out_apply, band0_blk, band1_blk, band2_blk, bias1_blk, w2_blk, bias2_blk]
  have ha : (fun j : Fin 4 => (iblk m c 0 t : Vec Ideal S2560x4 .f32) (ix2 (y 0) j))
      = fun j : Fin 4 => (V m c main_arg1 : Vec Ideal S640000x4 .f32) (ix2 (⟨2560 * t.val + (y 0).val, by omega⟩ : Fin 640000) j) :=
    funext fun j => attr_blk m c t _ _ rfl rfl
  have hs : (fun j : Fin 128 => (iblk m c 1 t : Vec Ideal S2560x128 .f32) (ix2 (y 0) j))
      = fun j : Fin 128 => (V m c main_v8 : Vec Ideal S640000x128 .f32) (ix2 (⟨2560 * t.val + (y 0).val, by omega⟩ : Fin 640000) j) :=
    funext fun j => sender_blk m c t _ _ rfl rfl
  have hr : (fun j : Fin 128 => (iblk m c 2 t : Vec Ideal S2560x128 .f32) (ix2 (y 0) j))
      = fun j : Fin 128 => (V m c main_v17 : Vec Ideal S640000x128 .f32) (ix2 (⟨2560 * t.val + (y 0).val, by omega⟩ : Fin 640000) j) :=
    funext fun j => receiver_blk m c t _ _ rfl rfl
  rw [ha, hs, hr]
  rfl

/-- An index of the result array is in point `t`'s block iff each coordinate is in the block's range on its axis. -/
theorem mem_blk (t : Fin cfg0.N) (i : S640000x128.Idx) :
    i ∈ ((cfg0.win 9).blk t).view.set ↔ ∀ a : Fin 2, win0_9.index t a * S2560x128.size a ≤ (i a).val ∧ (i a).val < win0_9.index t a * S2560x128.size a + S2560x128.size a := by
  show i ∈ ((View.whole main_v23).slice (win0_9.rect t)).set ↔ _
  rw [View.set_slice_whole, Rect.mem_set_unit]
  exact Iff.rfl

/-- Every entry of the result array is in the block of the point its row falls to. -/
theorem covered (i : S640000x128.Idx) :
    ∃ t : Fin cfg0.N, (cfg0.win 9).flush t = true ∧ i ∈ ((cfg0.win 9).blk t).view.set := by
  have hi0 : (i 0).val < 640000 := (i 0).isLt
  have hi1 : (i 1).val < 128 := (i 1).isLt
  have hN : cfg0.N = 250 := N_0
  let t : Fin cfg0.N := ⟨(i 0).val / 2560, by rw [hN]; omega⟩
  obtain ⟨-, -, -, -, -, -, -, -, -, ⟨e0, e1⟩⟩ := idx_facts t
  have htv : t.val = (i 0).val / 2560 := rfl
  refine ⟨t, flush0_9 t, ?_⟩
  rw [mem_blk]
  intro a
  match a with
  | ⟨0, _⟩ => show win0_9.index t (0 : Fin 2) * 2560 ≤ (i 0).val ∧ (i 0).val < win0_9.index t (0 : Fin 2) * 2560 + 2560; omega
  | ⟨1, _⟩ => show win0_9.index t (1 : Fin 2) * 128 ≤ (i 1).val ∧ (i 1).val < win0_9.index t (1 : Fin 2) * 128 + 128; omega

/-- THE RESULT ARRAY after the run is the network's output of the arrays as the kernel finds them. -/
theorem final (c : Dev nD) : (dats m 0 c).arrAt 9 cfg0.N = result m c :=
  (dats m 0 c).arrAt_eq_of_cover 9 (result m c) (fun t _ => flushed_eq m c t) covered

/-- The run, read: the result array at the network's output, the arguments unchanged. -/
theorem run : θ_run defs (onTc (τ := τ) (main (F := Ideal))) ⟨m, fun _ => 0, ρ⟩ fun r => ∀ c : Dev nD,
      r.2.mem ((c : Thread nD τ).loc main_v23) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.Hand

end
-- ==== Proof.KernelHost.lean ====
/-
  What the host operations in front of the kernel leave in the arrays the kernel's windows stage.

  The sender and receiver rows are two row gathers of the node features, each at one row of the edge index (a negative
  index wrapped by the number of nodes first); the three bands of the first weight matrix are its rows 0–3, 4–131 and
  132–259; each bias enters as a one-row matrix.
-/
import proofs.«164560_j88734024336032_1_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.TcCoe Idealize.SL.Sem Idealize.ShloMosaic.ValueIdx

variable {F : FTy → Type} [FloatOps F]

/-- Row `r` of the edge index as a column of start positions, a negative entry moved up by the number of nodes. -/
def startCol (r : Fin 2 → Nat) (hs : S2x640000.Slices r S1x640000) (x2 : (⟨S2x640000, .i32⟩ : BufTy).Contents (Elt F)) :
    (⟨S640000x1, .i32⟩ : BufTy).Contents (Elt F) :=
  broadcastInDim S640000x1 ![0] bcast_S640000_S640000x1_0
    (select (cmpi .slt (shapeCast _ (extractStridedSlice S1x640000 r x2 hs) shapeCasts_S1x640000_S640000) (broadcastInDim S640000 ![] bcast_S_S640000 (constantI S_ 32 0#32)))
      (addi (shapeCast _ (extractStridedSlice S1x640000 r x2 hs) shapeCasts_S1x640000_S640000) (broadcastInDim S640000 ![] bcast_S_S640000 (constantI S_ 32 100000#32)))
      (shapeCast _ (extractStridedSlice S1x640000 r x2 hs) shapeCasts_S1x640000_S640000))

/-- The node-feature rows gathered at row `r` of the edge index. -/
def gatheredRows (r : Fin 2 → Nat) (hs : S2x640000.Slices r S1x640000) (x0 : (⟨S100000x128, .f32⟩ : BufTy).Contents (Elt F))
    (x2 : (⟨S2x640000, .i32⟩ : BufTy).Contents (Elt F)) : (⟨S640000x128, .f32⟩ : BufTy).Contents (Elt F) :=
  Host.gather gather_S100000x128_S640000x1_S640000x128_1_0_n_n_0_1_1128 x0 (startCol r hs x2)

variable (m : (ℓ : Loc nD τ sig) → Buf (Elt F) ℓ)

set_option maxHeartbeats 2000000 in
/-- The sender rows the second window stages. -/
theorem V_sender (c : Dev nD) :
    (V m c main_v8 : (⟨S640000x128, .f32⟩ : BufTy).Contents (Elt F))
      = gatheredRows ![0, 0] slices_S2x640000_S1x640000_0_0 (m ((c : Thread nD τ).loc main_arg0)) (m ((c : Thread nD τ).loc main_arg2)) := by
  dsimp only [V, hostOps0]; after_results <;> rfl

set_option maxHeartbeats 2000000 in
/-- The receiver rows the third window stages. -/
theorem V_receiver (c : Dev nD) :
    (V m c main_v17 : (⟨S640000x128, .f32⟩ : BufTy).Contents (Elt F))
      = gatheredRows ![1, 0] slices_S2x640000_S1x640000_1_0 (m ((c : Thread nD τ).loc main_arg0)) (m ((c : Thread nD τ).loc main_arg2)) := by
  dsimp only [V, hostOps0]; after_results <;> rfl

/-- The first band of the first weight matrix. -/
theorem V_band0 (c : Dev nD) :
    (V m c main_v18 : (⟨S4x128, .f32⟩ : BufTy).Contents (Elt F))
      = extractStridedSlice S4x128 ![0, 0] (m ((c : Thread nD τ).loc main_arg3)) slices_S260x128_S4x128_0_0 := by
  dsimp only [V, hostOps0]; after_results <;> rfl

/-- The second band. -/
theorem V_band1 (c : Dev nD) :
    (V m c main_v19 : (⟨S128x128, .f32⟩ : BufTy).Contents (Elt F))
      = extractStridedSlice S128x128 ![4, 0] (m ((c : Thread nD τ).loc main_arg3)) slices_S260x128_S128x128_4_0 := by
  dsimp only [V, hostOps0]; after_results <;> rfl

/-- The third band. -/
theorem V_band2 (c : Dev nD) :
    (V m c main_v20 : (⟨S128x128, .f32⟩ : BufTy).Contents (Elt F))
      = extractStridedSlice S128x128 ![132, 0] (m ((c : Thread nD τ).loc main_arg3)) slices_S260x128_S128x128_132_0 := by
  dsimp only [V, hostOps0]; after_results <;> rfl

/-- The first bias as a one-row matrix. -/
theorem V_bias1 (c : Dev nD) :
    (V m c main_v21 : (⟨S1x128, .f32⟩ : BufTy).Contents (Elt F))
      = shapeCast S1x128 (m ((c : Thread nD τ).loc main_arg4)) shapeCasts_S128_S1x128 := by
  dsimp only [V, hostOps0]; after_results <;> rfl

/-- The second bias as a one-row matrix. -/
theorem V_bias2 (c : Dev nD) :
    (V m c main_v22 : (⟨S1x128, .f32⟩ : BufTy).Contents (Elt F))
      = shapeCast S1x128 (m ((c : Thread nD τ).loc main_arg6)) shapeCasts_S128_S1x128 := by
  dsimp only [V, hostOps0]; after_results <;> rfl

/-! ## The bands and the bias rows at an entry -/

theorem V_band0_apply (c : Dev nD) (j : Fin 4) (k : Fin 128) :
    (V m c main_v18 : (⟨S4x128, .f32⟩ : BufTy).Contents (Elt F)) (ix2 j k)
      = (m ((c : Thread nD τ).loc main_arg3) : (⟨S260x128, .f32⟩ : BufTy).Contents (Elt F)) (ix2 ⟨j.val, by have := j.isLt; omega⟩ k) := by
  rw [V_band0]
  exact slice2_axis0_apply 0 _ slices_S260x128_S4x128_0_0 j k ⟨j.val, by have := j.isLt; omega⟩ (by simp)

theorem V_band1_apply (c : Dev nD) (j : Fin 128) (k : Fin 128) :
    (V m c main_v19 : (⟨S128x128, .f32⟩ : BufTy).Contents (Elt F)) (ix2 j k)
      = (m ((c : Thread nD τ).loc main_arg3) : (⟨S260x128, .f32⟩ : BufTy).Contents (Elt F)) (ix2 ⟨4 + j.val, by have := j.isLt; omega⟩ k) := by
  rw [V_band1]
  exact slice2_axis0_apply 4 _ slices_S260x128_S128x128_4_0 j k ⟨4 + j.val, by have := j.isLt; omega⟩ rfl

theorem V_band2_apply (c : Dev nD) (j : Fin 128) (k : Fin 128) :
    (V m c main_v20 : (⟨S128x128, .f32⟩ : BufTy).Contents (Elt F)) (ix2 j k)
      = (m ((c : Thread nD τ).loc main_arg3) : (⟨S260x128, .f32⟩ : BufTy).Contents (Elt F)) (ix2 ⟨132 + j.val, by have := j.isLt; omega⟩ k) := by
  rw [V_band2]
  exact slice2_axis0_apply 132 _ slices_S260x128_S128x128_132_0 j k ⟨132 + j.val, by have := j.isLt; omega⟩ rfl

theorem V_bias1_apply (c : Dev nD) (k : Fin 128) :
    (V m c main_v21 : (⟨S1x128, .f32⟩ : BufTy).Contents (Elt F)) (ix2 (0 : Fin 1) k)
      = (m ((c : Thread nD τ).loc main_arg4) : (⟨S128, .f32⟩ : BufTy).Contents (Elt F)) (ix1 k) := by
  rw [V_bias1]
  exact shapeCast_a_1a_apply _ shapeCasts_S128_S1x128 0 k

theorem V_bias2_apply (c : Dev nD) (k : Fin 128) :
    (V m c main_v22 : (⟨S1x128, .f32⟩ : BufTy).Contents (Elt F)) (ix2 (0 : Fin 1) k)
      = (m ((c : Thread nD τ).loc main_arg6) : (⟨S128, .f32⟩ : BufTy).Contents (Elt F)) (ix1 k) := by
  rw [V_bias2]
  exact shapeCast_a_1a_apply _ shapeCasts_S128_S1x128 0 k

end Cert.KernelIdeal.Hand

end
-- ==== Proof.RefIsSpec.lean ====
/-
  The reference computes `EdgeMlp.out`.

  The reference joins the attribute, sender and receiver rows into one row of 260 entries and multiplies by the whole
  first weight matrix. Column `c` of the joined row comes from the attributes for `c < 4`, from the sender rows for
  `4 ≤ c < 132` and from the receiver rows above; so the sum over the 260 columns splits (`EdgeMlp.sum_split260`) into
  the three partial sums against the three row bands of the weight matrix. The rest — adding the bias, clamping at zero,
  the second product and the second bias — is the same expression entry by entry.
-/
import proofs.«164560_j88734024336032_1_alg».proof.Proof.Gen.ReferenceIdeal.Read
import proofs.«164560_j88734024336032_1_alg».proof.Proof.MlpSpec
import Idealize.ShloMosaic.Lib.Pipeline.Value
import Idealize.ShloMosaic.Lib.ValueIdx

noncomputable section

open scoped BigOperators

namespace Cert.ReferenceIdeal.Hand

open Cert.ReferenceIdeal Cert.ReferenceIdeal.Gen Cert.ReferenceIdeal.Read Idealize.ShloMosaic Idealize.ShloMosaic.ValueIdx Cert.EdgeMlp

variable (x0 : (⟨S100000x128, .f32⟩ : BufTy).Contents (Elt Ideal)) (x1 : (⟨S640000x4, .f32⟩ : BufTy).Contents (Elt Ideal))
  (x2 : (⟨S2x640000, .i32⟩ : BufTy).Contents (Elt Ideal)) (x3 : (⟨S260x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal))

/-! ## The joined row, column by column -/

/-- Columns 0–3 of the joined row are the attributes. -/
theorem joined_attr (e : Fin 640000) (j : Fin 4) :
    val_main_v18 (F := Ideal) x0 x1 x2 (ix2 e (⟨j.val, by have := j.isLt; omega⟩ : Fin 260)) = x1 (ix2 e j) := by
  unfold val_main_v18
  exact concatenate_apply_piece (t := S640000x260) (1 : Fin 2) [⟨S640000x4, x1⟩, ⟨S640000x128, val_main_v8 (F := Ideal) x0 x2⟩, ⟨S640000x128, val_main_v17 (F := Ideal) x0 x2⟩]
    concatenates_S640000x4_S640000x128_S640000x128_S640000x260_d1 (ix2 e (⟨j.val, by have := j.isLt; omega⟩ : Fin 260))
    0 (by show (0 : Nat) < 3; omega) S640000x4 x1 rfl rfl 0 rfl (ix2 e j)
    (fun b hb => by
      match b with
      | ⟨0, _⟩ => rfl
      | ⟨1, _⟩ => exact (hb (Fin.ext rfl)).elim)
    (Nat.zero_add _)

/-- Columns 4–131 are the sender rows. -/
theorem joined_sender (e : Fin 640000) (j : Fin 128) :
    val_main_v18 (F := Ideal) x0 x1 x2 (ix2 e (⟨4 + j.val, by have := j.isLt; omega⟩ : Fin 260)) = val_main_v8 (F := Ideal) x0 x2 (ix2 e j) := by
  unfold val_main_v18
  exact concatenate_apply_piece (t := S640000x260) (1 : Fin 2) [⟨S640000x4, x1⟩, ⟨S640000x128, val_main_v8 (F := Ideal) x0 x2⟩, ⟨S640000x128, val_main_v17 (F := Ideal) x0 x2⟩]
    concatenates_S640000x4_S640000x128_S640000x128_S640000x260_d1 (ix2 e (⟨4 + j.val, by have := j.isLt; omega⟩ : Fin 260))
    1 (by show (1 : Nat) < 3; omega) S640000x128 (val_main_v8 (F := Ideal) x0 x2) rfl rfl 4 rfl (ix2 e j)
    (fun b hb => by
      match b with
      | ⟨0, _⟩ => rfl
      | ⟨1, _⟩ => exact (hb (Fin.ext rfl)).elim)
    rfl

/-- Columns 132–259 are the receiver rows. -/
theorem joined_receiver (e : Fin 640000) (j : Fin 128) :
    val_main_v18 (F := Ideal) x0 x1 x2 (ix2 e (⟨132 + j.val, by have := j.isLt; omega⟩ : Fin 260)) = val_main_v17 (F := Ideal) x0 x2 (ix2 e j) := by
  unfold val_main_v18
  exact concatenate_apply_piece (t := S640000x260) (1 : Fin 2) [⟨S640000x4, x1⟩, ⟨S640000x128, val_main_v8 (F := Ideal) x0 x2⟩, ⟨S640000x128, val_main_v17 (F := Ideal) x0 x2⟩]
    concatenates_S640000x4_S640000x128_S640000x128_S640000x260_d1 (ix2 e (⟨132 + j.val, by have := j.isLt; omega⟩ : Fin 260))
    2 (by show (2 : Nat) < 3; omega) S640000x128 (val_main_v17 (F := Ideal) x0 x2) rfl rfl 132 rfl (ix2 e j)
    (fun b hb => by
      match b with
      | ⟨0, _⟩ => rfl
      | ⟨1, _⟩ => exact (hb (Fin.ext rfl)).elim)
    rfl

/-! ## The operand indices of the two products and of the bias broadcasts -/

theorem lidx19 (e : Fin 640000) (n : Fin 128) (q : Fin 260) : lidx_main_v19 (ix2 e n) q = ix2 e q :=
  funext fun a => Fin.ext (by match a with | ⟨0, _⟩ => rfl | ⟨1, _⟩ => rfl)
theorem ridx19 (e : Fin 640000) (n : Fin 128) (q : Fin 260) : ridx_main_v19 (ix2 e n) q = ix2 q n :=
  funext fun a => Fin.ext (by match a with | ⟨0, _⟩ => rfl | ⟨1, _⟩ => rfl)
theorem lidx24 (e : Fin 640000) (n : Fin 128) (q : Fin 128) : lidx_main_v24 (ix2 e n) q = ix2 e q :=
  funext fun a => Fin.ext (by match a with | ⟨0, _⟩ => rfl | ⟨1, _⟩ => rfl)
theorem ridx24 (e : Fin 640000) (n : Fin 128) (q : Fin 128) : ridx_main_v24 (ix2 e n) q = ix2 q n :=
  funext fun a => Fin.ext (by match a with | ⟨0, _⟩ => rfl | ⟨1, _⟩ => rfl)
theorem bidx1 (e : Fin 640000) (n : Fin 128) : idx_main_v20 (idx_main_v21 (ix2 e n)) = ix1 n :=
  funext fun a => Fin.ext (by match a with | ⟨0, _⟩ => rfl)
theorem bidx2 (e : Fin 640000) (n : Fin 128) : idx_main_v25 (idx_main_v26 (ix2 e n)) = ix1 n :=
  funext fun a => Fin.ext (by match a with | ⟨0, _⟩ => rfl)

variable (wa : Arr2 4 128) (wb wc : Arr2 128 128) (b1r b2r : Arr2 1 128)
  (hwa : ∀ (j : Fin 4) (k : Fin 128), wa (ix2 j k) = x3 (ix2 (⟨j.val, by have := j.isLt; omega⟩ : Fin 260) k))
  (hwb : ∀ (j : Fin 128) (k : Fin 128), wb (ix2 j k) = x3 (ix2 (⟨4 + j.val, by have := j.isLt; omega⟩ : Fin 260) k))
  (hwc : ∀ (j : Fin 128) (k : Fin 128), wc (ix2 j k) = x3 (ix2 (⟨132 + j.val, by have := j.isLt; omega⟩ : Fin 260) k))
  (hb1 : ∀ k : Fin 128, b1r (ix2 (0 : Fin 1) k) = x4 (ix1 k))
  (hb2 : ∀ k : Fin 128, b2r (ix2 (0 : Fin 1) k) = x6 (ix1 k))

include hwa hwb hwc in
/-- The first product at `(e, k)`: the sum over the joined row splits into the three partial sums. -/
theorem first_product (e : Fin 640000) (k : Fin 128) :
    val_main_v19 (F := Ideal) x0 x1 x2 x3 (ix2 e k)
      = ((∑ j : Fin 4, x1 (ix2 e j) * wa (ix2 j k)) + ∑ j : Fin 128, val_main_v8 (F := Ideal) x0 x2 (ix2 e j) * wb (ix2 j k))
        + ∑ j : Fin 128, val_main_v17 (F := Ideal) x0 x2 (ix2 e j) * wc (ix2 j k) := by
  rw [val_main_v19_apply]
  refine (sum_split260 _).trans ?_
  congr 1
  · congr 1
    · refine Finset.sum_congr rfl fun j _ => ?_
      beta_reduce
      rw [lidx19, ridx19, joined_attr, hwa]
    · refine Finset.sum_congr rfl fun j _ => ?_
      beta_reduce
      rw [lidx19, ridx19, joined_sender, hwb]
  · refine Finset.sum_congr rfl fun j _ => ?_
    beta_reduce
    rw [lidx19, ridx19, joined_receiver, hwc]

include hwa hwb hwc hb1 in
/-- The hidden unit `k` of edge `e`. -/
theorem hidden_unit (e : Fin 640000) (k : Fin 128) :
    val_main_v23 (F := Ideal) x0 x1 x2 x3 x4 (ix2 e k)
      = max ((((∑ j : Fin 4, x1 (ix2 e j) * wa (ix2 j k)) + ∑ j : Fin 128, val_main_v8 (F := Ideal) x0 x2 (ix2 e j) * wb (ix2 j k))
            + ∑ j : Fin 128, val_main_v17 (F := Ideal) x0 x2 (ix2 e j) * wc (ix2 j k)) + b1r (ix2 (0 : Fin 1) k))
          (Ideal.ofBits .f32 0x00000000#32) := by
  rw [val_main_v23_apply, val_main_v22_apply, first_product x0 x1 x2 x3 wa wb wc hwa hwb hwc, val_main_v21_apply, val_main_v20_apply,
    val_main_call0_v0_apply, val_main_call0_cst_apply, bidx1, hb1]
  rfl

include hwa hwb hwc hb1 hb2 in
/-- THE REFERENCE'S RESULT is `EdgeMlp.out` of the attributes, the gathered sender and receiver rows, and the weights
    with the first matrix given by its three row bands and the biases as one-row matrices. -/
theorem ref_is_out :
    val_main_v27 (F := Ideal) x0 x1 x2 x3 x4 x5 x6
      = out x1 (val_main_v8 (F := Ideal) x0 x2) (val_main_v17 (F := Ideal) x0 x2) wa wb wc b1r x5 b2r := by
  funext i
  obtain ⟨e, n, rfl⟩ : ∃ (e : Fin 640000) (n : Fin 128), i = ix2 e n := ⟨i 0, i 1, eq_ix2 i⟩
  rw [out_apply]
  unfold rowOut
  rw [val_main_v27_apply, val_main_v24_apply, val_main_v26_apply, val_main_v25_apply, bidx2, hb2]
  show (∑ k : Fin 128, val_main_v23 (F := Ideal) x0 x1 x2 x3 x4 (lidx_main_v24 (ix2 e n) k) * x5 (ridx_main_v24 (ix2 e n) k)) + x6 (ix1 n) = _
  congr 1
  refine Finset.sum_congr rfl fun k _ => ?_
  rw [lidx24, ridx24, hidden_unit x0 x1 x2 x3 x4 wa wb wc b1r hwa hwb hwc hb1]

end Cert.ReferenceIdeal.Hand

end
-- ==== Proof.lean ====
/-
  The certificate of the edge network kernel against its jnp reference.

  Both programs gather the sender and receiver rows of the node features by the same host operations (one term of the
  node features and the edge index on both sides). The kernel then runs one grid point per block of 2560 edges: three
  products — attributes, senders and receivers, each against its row band of the first weight matrix — added, plus the
  bias, clamped at zero, times the second weight matrix, plus the second bias; its result array ends holding
  `EdgeMlp.out` of the arrays the kernel finds (Proof/KernelBlocks.lean over Proof/KernelPayload.lean), whose weight
  bands and bias rows are rows of the arguments (Proof/KernelHost.lean). The reference joins the three inputs into rows
  of 260 entries and multiplies by the whole first weight matrix; the sum over the 260 columns splits into the kernel's
  three sums, by commutativity and associativity of addition on the extended reals alone, so the reference's result is
  the same `EdgeMlp.out` (Proof/RefIsSpec.lean). No step uses that the inputs are finite. The idealization rewrote no
  operation, so `preserves` is trivial; the kernels' frames are the generated ones and the reference's is its generated
  run with the result dropped.
-/
import proofs.«164560_j88734024336032_1_alg».proof.Defs
import proofs.«164560_j88734024336032_1_alg».proof.Proof.Gen.Kernel
import proofs.«164560_j88734024336032_1_alg».proof.Proof.Gen.Kernel.Skeleton
import proofs.«164560_j88734024336032_1_alg».proof.Proof.Gen.Kernel.Launch
import proofs.«164560_j88734024336032_1_alg».proof.Proof.Gen.Kernel.Points
import proofs.«164560_j88734024336032_1_alg».proof.Proof.Gen.Kernel.Frame
import proofs.«164560_j88734024336032_1_alg».proof.Proof.Gen.KernelIdeal
import proofs.«164560_j88734024336032_1_alg».proof.Proof.Gen.KernelIdeal.Skeleton
import proofs.«164560_j88734024336032_1_alg».proof.Proof.Gen.KernelIdeal.Launch
import proofs.«164560_j88734024336032_1_alg».proof.Proof.Gen.KernelIdeal.Points
import proofs.«164560_j88734024336032_1_alg».proof.Proof.Gen.KernelIdeal.Frame
import proofs.«164560_j88734024336032_1_alg».proof.Proof.Gen.ReferenceIdeal
import proofs.«164560_j88734024336032_1_alg».proof.Proof.Gen.Pre_finite_inputs
import proofs.«164560_j88734024336032_1_alg».proof.Proof.Gen.KernelIdeal.Value
import proofs.«164560_j88734024336032_1_alg».proof.Proof.Gen.ReferenceIdeal.Run
import proofs.«164560_j88734024336032_1_alg».proof.Proof.Gen.ReferenceIdeal.Read
import proofs.«164560_j88734024336032_1_alg».proof.Proof.KernelBlocks
import proofs.«164560_j88734024336032_1_alg».proof.Proof.KernelHost
import proofs.«164560_j88734024336032_1_alg».proof.Proof.RefIsSpec
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's sender gather and the reference's are one term of the node features and the edge index. -/
theorem sender_same (x0 : (⟨Cert.KernelIdeal.S100000x128, .f32⟩ : BufTy).Contents (Elt Ideal))
    (x2 : (⟨Cert.KernelIdeal.S2x640000, .i32⟩ : BufTy).Contents (Elt Ideal)) :
    Cert.KernelIdeal.Hand.gatheredRows (F := Ideal) ![0, 0] Cert.KernelIdeal.Gen.slices_S2x640000_S1x640000_0_0 x0 x2
      = Cert.ReferenceIdeal.Read.val_main_v8 (F := Ideal) x0 x2 := rfl

/-- The same for the receiver gather. -/
theorem receiver_same (x0 : (⟨Cert.KernelIdeal.S100000x128, .f32⟩ : BufTy).Contents (Elt Ideal))
    (x2 : (⟨Cert.KernelIdeal.S2x640000, .i32⟩ : BufTy).Contents (Elt Ideal)) :
    Cert.KernelIdeal.Hand.gatheredRows (F := Ideal) ![1, 0] Cert.KernelIdeal.Gen.slices_S2x640000_S1x640000_1_0 x0 x2
      = Cert.ReferenceIdeal.Read.val_main_v17 (F := Ideal) x0 x2 := rfl

/-- From memories agreeing on the arguments both programs end with the result array at `EdgeMlp.out` of the attributes,
    the gathered sender and receiver rows, the three bands of the first weight matrix, and the rest of the weights. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  show _ = Cert.KernelIdeal.Hand.result m c
  rw [Cert.ReferenceIdeal.Read.val_main_v27_eq, a0, a1, a2, a3, a4, a5, a6]
  rw [Cert.ReferenceIdeal.Hand.ref_is_out _ _ _ _ _ _ _
    (Cert.KernelIdeal.Gen.V m c Cert.KernelIdeal.main_v18) (Cert.KernelIdeal.Gen.V m c Cert.KernelIdeal.main_v19)
    (Cert.KernelIdeal.Gen.V m c Cert.KernelIdeal.main_v20) (Cert.KernelIdeal.Gen.V m c Cert.KernelIdeal.main_v21)
    (Cert.KernelIdeal.Gen.V m c Cert.KernelIdeal.main_v22)
    (Cert.KernelIdeal.Hand.V_band0_apply m c) (Cert.KernelIdeal.Hand.V_band1_apply m c) (Cert.KernelIdeal.Hand.V_band2_apply m c)
    (Cert.KernelIdeal.Hand.V_bias1_apply m c) (Cert.KernelIdeal.Hand.V_bias2_apply m c)]
  unfold Cert.KernelIdeal.Hand.result
  rw [Cert.KernelIdeal.Hand.V_sender m c, Cert.KernelIdeal.Hand.V_receiver m c, sender_same, receiver_same,
    Cert.KernelIdeal.Gen.V_main_arg1 m c, Cert.KernelIdeal.Gen.V_main_arg5 m c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
